-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x8 : Shape := ⟨3, ![8, 2048, 8]⟩
abbrev S8x1024x1024 : Shape := ⟨3, ![8, 1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x2048x8 : S_.BroadcastsInDim S8x2048x8 (![] : Fin 0 → Fin S8x2048x8.rank)
  reducesTo_S8x2048x8_S_d0_1_2 : S8x2048x8.ReducesTo [0, 1, 2] S_

variable [Facts]

def fn {F : FTy → Type} [FloatOps F] (main_arg0 : IVec S8x2048x8 32) (main_arg1 : FVec F S8x1024x1024 .f32) : IVec S_ 1 :=
  let main_v0 : FVec F S8x1024x1024 .f32 := Host.absf main_arg1
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_c_0 : IVec S_ 32 := constantI S_ 32 0#32
  let main_v4 : IVec S8x2048x8 32 := broadcastInDim S8x2048x8 ![] bcast_S_S8x2048x8 main_c_0
  let main_v5 : IVec S8x2048x8 1 := cmpi .sge main_arg0 main_v4
  let main_c_1 : IVec S_ 32 := constantI S_ 32 1024#32
  let main_v6 : IVec S8x2048x8 32 := broadcastInDim S8x2048x8 ![] bcast_S_S8x2048x8 main_c_1
  let main_v7 : IVec S8x2048x8 1 := cmpi .slt main_arg0 main_v6
  let main_v8 : IVec S8x2048x8 1 := andi main_v5 main_v7
  let main_c_2 : IVec S_ 1 := constantI S_ 1 1#1
  let main_v9 : IVec S_ 1 := (fun x v => Host.reduce IntOp.andi x v reducesTo_S8x2048x8_S_d0_1_2 h_S_) main_v8 main_c_2
  let main_v10 : IVec S_ 1 := andi main_v3 main_v9
  main_v10
-- ==== Kernel.lean ====
abbrev S8x2048x8 : Shape := ⟨3, ![8, 2048, 8]⟩
abbrev S8x1024x1024 : Shape := ⟨3, ![8, 1024, 1024]⟩
abbrev S16384x8 : Shape := ⟨2, ![16384, 8]⟩
abbrev S_ : Shape := ⟨0, ![]⟩
abbrev S16384x1024 : Shape := ⟨2, ![16384, 1024]⟩
abbrev S1024x8 : Shape := ⟨2, ![1024, 8]⟩
abbrev S1024x1024 : Shape := ⟨2, ![1024, 1024]⟩
abbrev S1024x1 : Shape := ⟨2, ![1024, 1]⟩
abbrev S1x1024x1024 : Shape := ⟨3, ![1, 1024, 1024]⟩
abbrev S8x2048x1024 : Shape := ⟨3, ![8, 2048, 1024]⟩

abbrev nBuf : Space → Nat
  | .hbm => 14
  | .vmem => 5
  | .smem => 0
  | _ => 0

abbrev bufTy : (tb : Table) → Fin (tcTables nBuf tb) → BufTy
  | .hbm, ⟨0, _⟩ => ⟨S8x2048x8, .i32⟩
  | .hbm, ⟨1, _⟩ => ⟨S8x1024x1024, .f32⟩
  | .hbm, ⟨2, _⟩ => ⟨S16384x8, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384x8, .i32⟩
  | .hbm, ⟨7, _⟩ => ⟨S16384x8, .i32⟩
  | .hbm, ⟨8, _⟩ => ⟨S_, .i32⟩
  | .hbm, ⟨9, _⟩ => ⟨S16384x8, .i32⟩
  | .hbm, ⟨10, _⟩ => ⟨S16384x8, .i32⟩
  | .hbm, ⟨11, _⟩ => ⟨S8x1024x1024, .bf16⟩
  | .hbm, ⟨12, _⟩ => ⟨S16384x1024, .f32⟩
  | .hbm, ⟨13, _⟩ => ⟨S8x2048x1024, .f32⟩
  | .local _ .vmem, ⟨0, _⟩ => ⟨S1024x8, .i32⟩
  | .local _ .vmem, ⟨1, _⟩ => ⟨S1024x8, .i32⟩
  | .local _ .vmem, ⟨2, _⟩ => ⟨S8x1024x1024, .bf16⟩
  | .local _ .vmem, ⟨3, _⟩ => ⟨S1024x1024, .f32⟩
  | .local _ .vmem, ⟨4, _⟩ => ⟨S1024x1024, .f32⟩
  | _, _ => ⟨S8x2048x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x2048x8_S16384x8 : S8x2048x8.ShapeCasts S16384x8
  bcast_S_S16384x8 : S_.BroadcastsInDim S16384x8 (![] : Fin 0 → Fin S16384x8.rank)
  bitsLt_bf16_f32 : FTy.bits .bf16 < FTy.bits .f32
  iota_S1024x1024_d1_w32 : S1024x1024.Iotas .tc 32 [1]
  inb_S1024x8_S1024x1_0_0 : ∀ a, (![0, 0] : Fin 2 → Nat) a + S1024x1.size a ≤ S1024x8.size a
  h_S1024x1 : 0 < S1024x1.numel
  shapeCasts_S1024x1_S1024x1 : S1024x1.ShapeCasts S1024x1
  broadcasts_S1024x1_S1024x1024 : S1024x1.Broadcasts S1024x1024
  natLt_1_32 : 1 < 32
  inb_S8x1024x1024_S1x1024x1024_0_0_0 : ∀ a, (![0, 0, 0] : Fin 3 → Nat) a + S1x1024x1024.size a ≤ S8x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  inb_S1024x8_S1024x1_0_1 : ∀ a, (![0, 1] : Fin 2 → Nat) a + S1024x1.size a ≤ S1024x8.size a
  inb_S8x1024x1024_S1x1024x1024_1_0_0 : ∀ a, (![1, 0, 0] : Fin 3 → Nat) a + S1x1024x1024.size a ≤ S8x1024x1024.size a
  shapeCasts_S1024x1024_S1024x1024 : S1024x1024.ShapeCasts S1024x1024
  inb_S1024x8_S1024x1_0_2 : ∀ a, (![0, 2] : Fin 2 → Nat) a + S1024x1.size a ≤ S1024x8.size a
  inb_S8x1024x1024_S1x1024x1024_2_0_0 : ∀ a, (![2, 0, 0] : Fin 3 → Nat) a + S1x1024x1024.size a ≤ S8x1024x1024.size a
  inb_S1024x8_S1024x1_0_3 : ∀ a, (![0, 3] : Fin 2 → Nat) a + S1024x1.size a ≤ S1024x8.size a
  inb_S8x1024x1024_S1x1024x1024_3_0_0 : ∀ a, (![3, 0, 0] : Fin 3 → Nat) a + S1x1024x1024.size a ≤ S8x1024x1024.size a
  inb_S1024x8_S1024x1_0_4 : ∀ a, (![0, 4] : Fin 2 → Nat) a + S1024x1.size a ≤ S1024x8.size a
  inb_S8x1024x1024_S1x1024x1024_4_0_0 : ∀ a, (![4, 0, 0] : Fin 3 → Nat) a + S1x1024x1024.size a ≤ S8x1024x1024.size a
  inb_S1024x8_S1024x1_0_5 : ∀ a, (![0, 5] : Fin 2 → Nat) a + S1024x1.size a ≤ S1024x8.size a
  inb_S8x1024x1024_S1x1024x1024_5_0_0 : ∀ a, (![5, 0, 0] : Fin 3 → Nat) a + S1x1024x1024.size a ≤ S8x1024x1024.size a
  inb_S1024x8_S1024x1_0_6 : ∀ a, (![0, 6] : Fin 2 → Nat) a + S1024x1.size a ≤ S1024x8.size a
  inb_S8x1024x1024_S1x1024x1024_6_0_0 : ∀ a, (![6, 0, 0] : Fin 3 → Nat) a + S1x1024x1024.size a ≤ S8x1024x1024.size a
  inb_S1024x8_S1024x1_0_7 : ∀ a, (![0, 7] : Fin 2 → Nat) a + S1024x1.size a ≤ S1024x8.size a
  inb_S8x1024x1024_S1x1024x1024_7_0_0 : ∀ a, (![7, 0, 0] : Fin 3 → Nat) a + S1x1024x1024.size a ≤ S8x1024x1024.size a
  shapeCasts_S16384x1024_S8x2048x1024 : S16384x1024.ShapeCasts S8x2048x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S16384x8.size a
  hwx0_0 : ∀ i : grid0.Coords, EltTy.bits .i32 = 32 ∨ (Rect.block (s := S16384x8) S1024x8.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x1024.size a ≤ S8x1024x1024.size a
  hwx0_1 : ∀ i : grid0.Coords, EltTy.bits .bf16 = 32 ∨ (Rect.block (s := S8x1024x1024) S8x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x8 : Shape := ⟨3, ![8, 2048, 8]⟩
abbrev S8x1024x1024 : Shape := ⟨3, ![8, 1024, 1024]⟩
abbrev S8 : Shape := ⟨1, ![8]⟩
abbrev S1x1x8 : Shape := ⟨3, ![1, 1, 8]⟩
abbrev S_ : Shape := ⟨0, ![]⟩
abbrev S8x2048x8x1 : Shape := ⟨4, ![8, 2048, 8, 1]⟩
abbrev S8x2048x8x2 : Shape := ⟨4, ![8, 2048, 8, 2]⟩
abbrev S8x2048x8x1024 : Shape := ⟨4, ![8, 2048, 8, 1024]⟩
abbrev S8x2048x1024 : Shape := ⟨3, ![8, 2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x8, .i32⟩
  | .hbm, ⟨1, _⟩ => ⟨S8x1024x1024, .f32⟩
  | .hbm, ⟨2, _⟩ => ⟨S8, .i32⟩
  | .hbm, ⟨3, _⟩ => ⟨S1x1x8, .i32⟩
  | .hbm, ⟨4, _⟩ => ⟨S_, .i32⟩
  | .hbm, ⟨5, _⟩ => ⟨S1x1x8, .i32⟩
  | .hbm, ⟨6, _⟩ => ⟨S1x1x8, .i1⟩
  | .hbm, ⟨7, _⟩ => ⟨S_, .i32⟩
  | .hbm, ⟨8, _⟩ => ⟨S1x1x8, .i32⟩
  | .hbm, ⟨9, _⟩ => ⟨S1x1x8, .i32⟩
  | .hbm, ⟨10, _⟩ => ⟨S1x1x8, .i32⟩
  | .hbm, ⟨11, _⟩ => ⟨S_, .i32⟩
  | .hbm, ⟨12, _⟩ => ⟨S8x2048x8, .i32⟩
  | .hbm, ⟨13, _⟩ => ⟨S8x2048x8, .i1⟩
  | .hbm, ⟨14, _⟩ => ⟨S_, .i32⟩
  | .hbm, ⟨15, _⟩ => ⟨S8x2048x8, .i32⟩
  | .hbm, ⟨16, _⟩ => ⟨S8x2048x8, .i32⟩
  | .hbm, ⟨17, _⟩ => ⟨S8x2048x8, .i32⟩
  | .hbm, ⟨18, _⟩ => ⟨S8x2048x8, .i32⟩
  | .hbm, ⟨19, _⟩ => ⟨S8x2048x8x1, .i32⟩
  | .hbm, ⟨20, _⟩ => ⟨S8x2048x8x1, .i32⟩
  | .hbm, ⟨21, _⟩ => ⟨S8x2048x8x2, .i32⟩
  | .hbm, ⟨22, _⟩ => ⟨S8x2048x8x1024, .f32⟩
  | .hbm, ⟨23, _⟩ => ⟨S_, .f32⟩
  | .hbm, ⟨24, _⟩ => ⟨S8x2048x1024, .f32⟩
  | _, _ => ⟨S8x2048x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S_S1x1x8 : S_.BroadcastsInDim S1x1x8 (![] : Fin 0 → Fin S1x1x8.rank)
  bcast_S_S8x2048x8 : S_.BroadcastsInDim S8x2048x8 (![] : Fin 0 → Fin S8x2048x8.rank)
  bcast_S1x1x8_S8x2048x8_0_1_2 : S1x1x8.BroadcastsInDim S8x2048x8 (![0, 1, 2] : Fin 3 → Fin S8x2048x8.rank)
  bcast_S8x2048x8_S8x2048x8x1_0_1_2 : S8x2048x8.BroadcastsInDim S8x2048x8x1 (![0, 1, 2] : Fin 3 → Fin S8x2048x8x1.rank)
  concatenates_S8x2048x8x1_S8x2048x8x1_S8x2048x8x2_d3 : Shape.Concatenates [S8x2048x8x1, S8x2048x8x1] S8x2048x8x2 3
  reducesTo_S8x2048x8x1024_S8x2048x1024_d2 : S8x2048x8x1024.ReducesTo [2] S8x2048x1024
  h_S_ : 0 < S_.numel
  gather_S8x1024x1024_S8x2048x8x2_S8x2048x8x1024_3_01_n_n_01_3_111024_wf : GatherDims.WF S8x1024x1024 S8x2048x8x2 S8x2048x8x1024 [3] [0, 1] [] [0, 1] [] 3 ![1, 1, 1024]

variable [Facts₀]

def gather_S8x1024x1024_S8x2048x8x2_S8x2048x8x1024_3_01_n_n_01_3_111024 : GatherDims S8x1024x1024 S8x2048x8x2 S8x2048x8x1024 where
  offsetDims := [3]
  collapsedSliceDims := [0, 1]
  operandBatchingDims := []
  startIndicesBatchingDims := []
  startIndexMap := [0, 1]
  indexVectorDim := 3
  sliceSizes := ![1, 1, 1024]
  wf := gather_S8x1024x1024_S8x2048x8x2_S8x2048x8x1024_3_01_n_n_01_3_111024_wf

class Facts : Prop extends Facts₀ where

variable [Facts]
-- ==== Proof.EmbedSpec.lean ====
/-
  The mathematics of a multi-level embedding lookup, stated with no program in sight.

  There are eight tables of 1024 rows and 1024 columns, `w l k d`, and for every token `(n, s)` eight index
  words `x n s l`, one per table. The result is the sum over the tables of the row each index selects:
  `out n s d = ∑ l, w l (row (x n s l)) d`, where `row` reads the word as a signed integer and clamps it
  into `[0, 1023]`.

  Two ways of selecting that row meet here. One clips the word into `[0, 1023]` (a signed maximum with 0, then a
  signed minimum with 1023), compares the clipped word with every column number `k`, turns the comparison bit into the
  number 0 or 1 and multiplies: `∑ k, [clip v = k] · w l k d`. On the extended reals `0 · a = 0` and `1 · a = a`
  for every `a`, infinite ones included, so that sum is the single term `w l (row v) d` (`sum_hot_mul`), with no
  finiteness asked of the table. The other adds 1024 to a negative word and then reads the row clamped; for a word that
  is not negative nothing is added and it reads `row v` too (`wrap_of_nonneg`).
-/
import Idealize.ShloMosaic.PureOps.Ideal.Laws
import Idealize.ShloMosaic.Lib.ValueIdx
import Idealize.ShloMosaic.Lib.Pipeline.Value

noncomputable section

open scoped BigOperators

namespace Cert.Embed

open Idealize.ShloMosaic Idealize.ShloMosaic.ValueIdx

/-! ## Words -/

/-- A signed comparison of two words is the comparison of the integers they denote. -/
theorem slt_iff (a b : BitVec 32) : a.slt b = true ↔ a.toInt < b.toInt := by
  simp [BitVec.slt]

/-- The table row an index word selects: the word read as a signed integer, clamped into `[0, 1023]`. -/
def row (v : BitVec 32) : Fin 1024 := ⟨min v.toInt.toNat 1023, by omega⟩

/-- A word clipped into `[0, 1023]`: the signed maximum with 0, then the signed minimum with 1023. -/
def clip (v : BitVec 32) : BitVec 32 := IntOp.minsi 1023#32 (IntOp.maxsi 0#32 v)

/-- The clipped word, read as a natural number, is the row the word selects. -/
theorem clip_toNat (v : BitVec 32) : (clip v).toNat = (row v).val := by
  have h0 : (0#32 : BitVec 32).toInt = 0 := by decide
  have h1 : (1023#32 : BitVec 32).toInt = 1023 := by decide
  have hv := BitVec.toInt_eq_toNat_cond v
  have hlt : v.toNat < 2 ^ 32 := v.isLt
  show (IntOp.minsi 1023#32 (IntOp.maxsi 0#32 v)).toNat = min v.toInt.toNat 1023
  unfold IntOp.minsi IntOp.maxsi
  by_cases hneg : v.slt 0#32 = true
  · rw [if_pos hneg]
    have hneg' := (slt_iff _ _).mp hneg
    rw [h0] at hneg'
    have : ¬ ((1023#32 : BitVec 32).slt 0#32 = true) := by decide
    rw [if_neg this]
    show (0 : Nat) = _
    omega
  · rw [if_neg hneg]
    have hneg' : ¬ v.toInt < 0 := fun h => hneg ((slt_iff _ _).mpr (by rw [h0]; exact h))
    by_cases hbig : (1023#32 : BitVec 32).slt v = true
    · rw [if_pos hbig]
      have hbig' := (slt_iff _ _).mp hbig
      rw [h1] at hbig'
      show (1023 : Nat) = _
      omega
    · rw [if_neg hbig]
      have hbig' : ¬ (1023 : Int) < v.toInt := fun h => hbig ((slt_iff _ _).mpr (by rw [h1]; exact h))
      split_ifs at hv <;> omega

/-- So the clipped word is below 1024. -/
theorem clip_lt (v : BitVec 32) : (clip v).toNat < 1024 := by rw [clip_toNat]; exact (row v).isLt

/-- A word with 1024 added when it is negative: how a negative index is made to count from the table's end. -/
def wrap (v : BitVec 32) : BitVec 32 :=
  Scalar.select (IntOp.cmpi .slt v 0#32) (IntOp.addi v 1024#32) v

/-- A word that is not negative is left as it is. -/
theorem wrap_of_nonneg (v : BitVec 32) (h : 0 ≤ v.toInt) : wrap v = v := by
  have h0 : (0#32 : BitVec 32).toInt = 0 := by decide
  have hn : ¬ (v.slt 0#32 = true) := fun hs => by
    have := (slt_iff _ _).mp hs; rw [h0] at this; omega
  unfold wrap Scalar.select IntOp.cmpi
  have : v.slt 0#32 = false := by simpa using hn
  simp [this]

/-! ## The one-hot entry and its sum against a table column -/

/-- The entry of a one-hot row as it is computed: the comparison bit of the word with the column number, widened to
    32 bits and converted to a number. -/
def hot (c : BitVec 32) (k : Nat) : EReal :=
  FloatOps.sitofp (F := Ideal) .f32 ((IntOp.cmpi .eq c (BitVec.ofNat 32 k)).setWidth 32)

/-- It is 1 at the column the word names and 0 elsewhere. -/
theorem hot_eq (c : BitVec 32) (k : Nat) (hk : k < 2 ^ 32) : hot c k = if k = c.toNat then 1 else 0 := by
  unfold hot IntOp.cmpi
  show ((((BitVec.ofBool (c == BitVec.ofNat 32 k)).setWidth 32).toInt : ℝ) : EReal) = _
  by_cases h : k = c.toNat
  · subst h
    rw [if_pos rfl]
    have : (c == BitVec.ofNat 32 c.toNat) = true := by simp
    rw [this]
    have : ((BitVec.ofBool true).setWidth 32 : BitVec 32).toInt = 1 := by decide
    rw [this]; simp
  · rw [if_neg h]
    have : (c == BitVec.ofNat 32 k) = false := by
      rw [beq_eq_false_iff_ne]
      intro hc
      apply h
      rw [hc, BitVec.toNat_ofNat, Nat.mod_eq_of_lt hk]
    rw [this]
    have : ((BitVec.ofBool false).setWidth 32 : BitVec 32).toInt = 0 := by decide
    rw [this]; simp

/-- A one-hot row against a column of 1024 extended reals picks the named entry: every other product is `0 · a = 0`,
    also for an infinite `a`. -/
theorem sum_hot_mul (c : BitVec 32) (hc : c.toNat < 1024) (f : Fin 1024 → EReal) :
    ∑ k : Fin 1024, hot c k.val * f k = f ⟨c.toNat, hc⟩ := by
  rw [Finset.sum_eq_single (⟨c.toNat, hc⟩ : Fin 1024)]
  · rw [hot_eq c c.toNat (by omega), if_pos rfl, one_mul]
  · intro k _ hk
    rw [hot_eq c k.val (by have := k.isLt; omega), if_neg (fun h => hk (Fin.ext h)), zero_mul]
  · intro h; exact absurd (Finset.mem_univ _) h

/-! ## The result as one function of the two arrays -/

/-- `out n s d = ∑ l, w l (row (x n s l)) d`. -/
def G (x : IVec ⟨3, ![8, 2048, 8]⟩ 32) (w : FVec Ideal ⟨3, ![8, 1024, 1024]⟩ .f32) :
    FVec Ideal ⟨3, ![8, 2048, 1024]⟩ .f32 :=
  fun j => ∑ l : Fin 8,
    w (ix3 l (row (x (ix3 (⟨(j 0).val, (j 0).isLt⟩ : Fin 8) (⟨(j 1).val, (j 1).isLt⟩ : Fin 2048) l)))
      (⟨(j 2).val, (j 2).isLt⟩ : Fin 1024))

/-! ## The same result with the token axes flattened -/

/-- The result over 16384 flattened token rows: row `R` is token `(R / 2048, R % 2048)`. -/
def Gflat (x : IVec ⟨3, ![8, 2048, 8]⟩ 32) (w : FVec Ideal ⟨3, ![8, 1024, 1024]⟩ .f32) :
    FVec Ideal ⟨2, ![16384, 1024]⟩ .f32 :=
  fun i => ∑ l : Fin 8,
    w (ix3 l (row (x (ix3 (⟨(i 0).val / 2048, by have := idx2_lt0 i; omega⟩ : Fin 8)
      (⟨(i 0).val % 2048, Nat.mod_lt _ (by decide)⟩ : Fin 2048) l))) (⟨(i 1).val, idx2_lt1 i⟩ : Fin 1024))

/-- Viewing the flattened result as `[8, 2048, 1024]` gives `G`: token `(n, s)` is row `n · 2048 + s`, whose quotient and
    remainder by 2048 are `n` and `s`. -/
theorem shapeCast_Gflat (x : IVec ⟨3, ![8, 2048, 8]⟩ 32) (w : FVec Ideal ⟨3, ![8, 1024, 1024]⟩ .f32)
    (h : (⟨2, ![16384, 1024]⟩ : Shape).ShapeCasts ⟨3, ![8, 2048, 1024]⟩) :
    shapeCast ⟨3, ![8, 2048, 1024]⟩ (Gflat x w) h = G x w := by
  funext j
  obtain ⟨n, s, d, rfl⟩ : ∃ (n : Fin 8) (s : Fin 2048) (d : Fin 1024), j = ix3 n s d := ⟨j 0, j 1, j 2, eq_ix3 j⟩
  have hn := n.isLt
  have hs := s.isLt
  rw [shapeCast_apply (Gflat x w) h (ix3 n s d) (ix2 (⟨n.val * 2048 + s.val, by omega⟩ : Fin 16384) d) (by
    rw [Shape.rowMajor_val_two, Shape.rowMajor_val_three]
    show (n.val * 2048 + s.val) * 1024 + d.val = (n.val * 2048 + s.val) * 1024 + d.val
    rfl)]
  show ∑ l : Fin 8, w (ix3 l (row (x (ix3 (⟨(n.val * 2048 + s.val) / 2048, _⟩ : Fin 8)
      (⟨(n.val * 2048 + s.val) % 2048, _⟩ : Fin 2048) l))) (⟨d.val, _⟩ : Fin 1024))
    = ∑ l : Fin 8, w (ix3 l (row (x (ix3 (⟨n.val, _⟩ : Fin 8) (⟨s.val, _⟩ : Fin 2048) l))) (⟨d.val, _⟩ : Fin 1024))
  have e1 : (⟨(n.val * 2048 + s.val) / 2048, by omega⟩ : Fin 8) = ⟨n.val, hn⟩ := Fin.ext (by show _ / 2048 = n.val; omega)
  have e2 : (⟨(n.val * 2048 + s.val) % 2048, Nat.mod_lt _ (by decide)⟩ : Fin 2048) = ⟨s.val, hs⟩ :=
    Fin.ext (by show _ % 2048 = s.val; omega)
  rw [e1, e2]

end Cert.Embed

end
-- ==== Proof.LibKeepdims.lean ====
/-
  Column vectors read at an index. A "keepdims" reduction leaves a column `[a, 1]`; what is read of it
  downstream is always its row coordinate. Three layout operations on columns, each read at an index written
  by coordinates:
    * a column `[a, 1]` flattened to `[a]` reads at `i` the column's entry `(i, 0)`;
    * a vector `[a]` stood up as a column `[a, 1]` reads at `(i, u)` the vector's entry `i`;
    * a column `[a, 1]` broadcast along the lanes to `[a, b]` reads at `(p, c)` the column's entry `(p, 0)`.
  In each the two row-major positions agree because the unit axis contributes nothing to the position.
-/
import Idealize.ShloMosaic.Lib.Pipeline.Value
import Idealize.ShloMosaic.Lib.ValueIdx

namespace Idealize.ShloMosaic.ValueIdx

open Idealize.ShloMosaic

variable {α : Type}

/-- A column `[a, 1]` cast to the vector `[a]` reads, at `i`, the column at `(i, 0)`: the row-major position of
    `(i, 0)` in `[a, 1]` is `i · 1 + 0 = i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` cast to the column `[a, 1]` reads, at `(i, u)`, the vector at `i`, whatever the unit
    coordinate `u` (which is `0`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the lane
    coordinate `c` is dropped on the unit axis, the row coordinate kept (and if `a` itself is `1` the row
    coordinate is `0` anyway). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelAddend.lean ====
/-
  One table's contribution to a block of the result, as the kernel computes it, read at an index.

  For one table the kernel takes a column of 1024 index words `xc` (one word per row of the block) and the table's slab
  `ws` (1 × 1024 × 1024). It spreads the column along 1024 lanes, compares each lane with its lane number `k`, turns the
  comparison bit into the number 0 or 1, and multiplies the resulting one-hot matrix with the slab into a zero
  accumulator. At the ideal values the product at `(r, d)` is `∑ k, [xc r = k] · ws 0 k d`, a sum with at most one term
  that is not `0 · a`: when the word of row `r` is below 1024 it is the slab's entry `ws 0 (xc r) d` — whatever the
  slab holds, an infinite entry included, since `0 · a = 0` for every extended real `a`.
-/
import proofs.«415377_j84370337562892_3_alg».proof.Proof.Gen.KernelIdeal
import proofs.«415377_j84370337562892_3_alg».proof.Proof.EmbedSpec
import proofs.«415377_j84370337562892_3_alg».proof.Proof.LibKeepdims
import Idealize.ShloMosaic.PureOps.Ideal.Laws
import Idealize.ShloMosaic.Lib.ValueIdx
import Idealize.ShloMosaic.Lib.Pipeline.Value

noncomputable section

open scoped BigOperators

namespace Cert.KernelIdeal.Embed

open Cert.KernelIdeal Idealize.ShloMosaic Idealize.ShloMosaic.ValueIdx Cert.Embed

open Facts₀ Facts

/-! ## The matrix product's operand indices, axis by axis -/

theorem lhs_dot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem lhs_dot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

theorem rhs_dot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

theorem rhs_dot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-! ## The two operands at an index -/

/-- The one-hot matrix built from a column of index words: compare, widen the bit, convert, change format. -/
def onehot (xc : IVec S1024x1 32) : FVec Ideal S1024x1024 .bf16 :=
  truncf .bf16 (sitofp .f32 (extui 32 (cmpi .eq
    (broadcastTo S1024x1024 (shapeCast S1024x1 xc shapeCasts_S1024x1_S1024x1) broadcasts_S1024x1_S1024x1024)
    (iota .tc S1024x1024 32 [1] iota_S1024x1024_d1_w32)) natLt_1_32)) bitsLt_bf16_f32

/-- Its entry at `(r, k)` is the one-hot entry of row `r`'s word at column `k`. -/
theorem onehot_apply (xc : IVec S1024x1 32) (r k : Fin 1024) : onehot xc (ix2 r k) = hot (xc (ix2 r (0 : Fin 1))) k.val := by
  show FloatOps.sitofp (F := Ideal) .f32 ((IntOp.cmpi .eq
    (broadcastTo S1024x1024 (shapeCast S1024x1 xc shapeCasts_S1024x1_S1024x1) broadcasts_S1024x1_S1024x1024 (ix2 r k))
    (iota .tc S1024x1024 32 [1] iota_S1024x1024_d1_w32 (ix2 r k))).setWidth 32) = _
  rw [broadcastTo_a1_ab_apply, shapeCast_self, iota_single_apply]
  rfl

/-- A table's slab `[1, 1024, 1024]` viewed as the matrix `[1024, 1024]` reads `(k, d)` at `(0, k, d)`. -/
theorem slab_apply (ws : FVec Ideal S1x1024x1024 .bf16) (k d : Fin 1024) :
    shapeCast S1024x1024 ws shapeCasts_S1x1024x1024_S1024x1024 (ix2 k d) = ws (ix3 (0 : Fin 1) k d) :=
  shapeCast_apply ws shapeCasts_S1x1024x1024_S1024x1024 (ix2 k d) (ix3 (0 : Fin 1) k d) (by
    rw [Shape.rowMajor_val_three, Shape.rowMajor_val_two]
    show (0 * 1024 + k.val) * 1024 + d.val = k.val * 1024 + d.val
    omega)

/-! ## The contribution of one table -/

/-- The one-hot matrix of a column of index words times a table's slab, into a zero accumulator. -/
def addend (xc : IVec S1024x1 32) (ws : FVec Ideal S1x1024x1024 .bf16) : FVec Ideal S1024x1024 .f32 :=
  matmul dot_S1024x1024_S1024x1024_S1024x1024_1_0_0_1_n_n none (onehot xc)
    (shapeCast S1024x1024 ws shapeCasts_S1x1024x1024_S1024x1024) (constant S1024x1024 .f32 0x00000000#32)

/-- At `(r, d)`, when row `r`'s word is below 1024, it is the slab's entry in the row the word names. -/
theorem addend_apply (xc : IVec S1024x1 32) (ws : FVec Ideal S1x1024x1024 .bf16) (r d : Fin 1024)
    (hx : (xc (ix2 r (0 : Fin 1))).toNat < 1024) :
    addend xc ws (ix2 r d) = ws (ix3 (0 : Fin 1) ⟨(xc (ix2 r (0 : Fin 1))).toNat, hx⟩ d) := by
  unfold addend
  simp only [matmul]
  rw [Ideal.matmul_constant_zero_apply,
    ← Equiv.sum_comp (contrEquiv1 dot_S1024x1024_S1024x1024_S1024x1024_1_0_0_1_n_n 1024 rfl rfl).symm]
  rw [Finset.sum_congr rfl (g := fun k : Fin 1024 => hot (xc (ix2 r (0 : Fin 1))) k.val * ws (ix3 (0 : Fin 1) k d)) fun k _ => ?_]
  · exact sum_hot_mul _ hx fun k => ws (ix3 (0 : Fin 1) k d)
  · have hk := contrEquiv1_symm_val dot_S1024x1024_S1024x1024_S1024x1024_1_0_0_1_n_n 1024 rfl rfl k
    have el : dot_S1024x1024_S1024x1024_S1024x1024_1_0_0_1_n_n.lhsIdx (ix2 r d)
        ((contrEquiv1 dot_S1024x1024_S1024x1024_S1024x1024_1_0_0_1_n_n 1024 rfl rfl).symm k) = ix2 r k :=
      funext fun a => Fin.ext (by
        match a with
        | ⟨0, _⟩ => exact lhs_dot_0 _ _
        | ⟨1, _⟩ => exact (lhs_dot_1 _ _).trans hk)
    have er : dot_S1024x1024_S1024x1024_S1024x1024_1_0_0_1_n_n.rhsIdx (ix2 r d)
        ((contrEquiv1 dot_S1024x1024_S1024x1024_S1024x1024_1_0_0_1_n_n 1024 rfl rfl).symm k) = ix2 k d :=
      funext fun a => Fin.ext (by
        match a with
        | ⟨0, _⟩ => exact (rhs_dot_0 _ _).trans hk
        | ⟨1, _⟩ => exact rhs_dot_1 _ _)
    rw [el, er, onehot_apply, slab_apply]

end Cert.KernelIdeal.Embed

end
-- ==== Proof.KernelBody.lean ====
/-
  What one run of the kernel body leaves in its output block, at the ideal values.

  The body handles the eight tables one after the other. For table 0 it stores the table's contribution (the one-hot
  matrix of the block's index column 0 times the table's slab); for each later table it loads the block back, adds that
  table's contribution and stores the sum. Every store fills the whole block, so what the block holds in the end is the
  last store's value, in which each load reads the store before it: the left-nested sum
  `((((((A₀ + A₁) + A₂) + A₃) + A₄) + A₅) + A₆) + A₇` of the eight contributions.

  When every index word of the block is below 1024 — word `(r, l)` naming row `ρ r l` — contribution `l` at `(r, d)`
  is the table's entry `w l (ρ r l) d`, so the block holds `∑ l, w l (ρ r l) d` at `(r, d)`.
-/
import proofs.«415377_j84370337562892_3_alg».proof.Proof.Gen.KernelIdeal.Frame
import proofs.«415377_j84370337562892_3_alg».proof.Proof.KernelAddend

set_option maxRecDepth 16384

noncomputable section

open scoped BigOperators

namespace Cert.KernelIdeal.Embed

open Cert.KernelIdeal Cert.KernelIdeal.Gen Idealize.ShloMosaic Idealize.ShloMosaic.TcCoe Idealize.ShloMosaic.Tactic
open Idealize.ShloMosaic.ValueIdx Idealize.SL Idealize.SL.Sem Cert.Embed
open Facts₀ Facts

/-! ## The block as the chain of the eight stores -/

/-- The block's offsets, all zero. -/
theorem off_zero : (![0, 0] : Fin S1024x1024.rank → Nat) = fun _ => 0 := by
  funext a; match a with | ⟨0, _⟩ => rfl | ⟨1, _⟩ => rfl

section AnyValues
variable {F : FTy → Type} [FloatOps F]

/-- What the run leaves in the output block is the last store's value, each read-back of the block replaced by the
    store before it. -/
theorem out_chain (c : Dev nD) (i : grid0.Coords) (arg1 : Memref sig .tc .vmem S1024x8 .i32) (harg1 : arg1.IsWhole)
    (arg2 : Memref sig .tc .vmem S8x1024x1024 .bf16) (harg2 : arg2.IsWhole) (arg3 : Memref sig .tc .vmem S1024x1024 .f32)
    (harg3 : arg3.IsWhole) (x0 : Vec F S1024x8 .i32) (x1 : Vec F S8x1024x1024 .bf16) :
    out0_A_2 c i arg1 harg1 arg2 harg2 arg3 harg3 x0 x1 =
      k0_pay1
        (k0_pay10 (iota .tc S1024x1024 32 [1] Facts₀.iota_S1024x1024_d1_w32)
          (View.ld x0 (Rect.unit (s := S1024x8) ![0, 7] S1024x1.size Facts₀.inb_S1024x8_S1024x1_0_7)))
        (View.ld x1 (Rect.unit (s := S8x1024x1024) ![7, 0, 0] S1x1024x1024.size Facts₀.inb_S8x1024x1024_S1x1024x1024_7_0_0))
        (k0_pay9 (iota .tc S1024x1024 32 [1] Facts₀.iota_S1024x1024_d1_w32)
          (View.ld x0 (Rect.unit (s := S1024x8) ![0, 6] S1024x1.size Facts₀.inb_S1024x8_S1024x1_0_6))
          (View.ld x1 (Rect.unit (s := S8x1024x1024) ![6, 0, 0] S1x1024x1024.size Facts₀.inb_S8x1024x1024_S1x1024x1024_6_0_0))
          (k0_pay8 (iota .tc S1024x1024 32 [1] Facts₀.iota_S1024x1024_d1_w32)
            (View.ld x0 (Rect.unit (s := S1024x8) ![0, 5] S1024x1.size Facts₀.inb_S1024x8_S1024x1_0_5))
            (View.ld x1 (Rect.unit (s := S8x1024x1024) ![5, 0, 0] S1x1024x1024.size Facts₀.inb_S8x1024x1024_S1x1024x1024_5_0_0))
            (k0_pay7 (iota .tc S1024x1024 32 [1] Facts₀.iota_S1024x1024_d1_w32)
              (View.ld x0 (Rect.unit (s := S1024x8) ![0, 4] S1024x1.size Facts₀.inb_S1024x8_S1024x1_0_4))
              (View.ld x1 (Rect.unit (s := S8x1024x1024) ![4, 0, 0] S1x1024x1024.size Facts₀.inb_S8x1024x1024_S1x1024x1024_4_0_0))
              (k0_pay6 (iota .tc S1024x1024 32 [1] Facts₀.iota_S1024x1024_d1_w32)
                (View.ld x0 (Rect.unit (s := S1024x8) ![0, 3] S1024x1.size Facts₀.inb_S1024x8_S1024x1_0_3))
                (View.ld x1 (Rect.unit (s := S8x1024x1024) ![3, 0, 0] S1x1024x1024.size Facts₀.inb_S8x1024x1024_S1x1024x1024_3_0_0))
                (k0_pay5 (k0_pay4 (View.ld x0 (Rect.unit (s := S1024x8) ![0, 2] S1024x1.size Facts₀.inb_S1024x8_S1024x1_0_2)))
                  (View.ld x1 (Rect.unit (s := S8x1024x1024) ![2, 0, 0] S1x1024x1024.size Facts₀.inb_S8x1024x1024_S1x1024x1024_2_0_0))
                  (k0_pay3 (View.ld x0 (Rect.unit (s := S1024x8) ![0, 1] S1024x1.size Facts₀.inb_S1024x8_S1024x1_0_1))
                    (View.ld x1 (Rect.unit (s := S8x1024x1024) ![1, 0, 0] S1x1024x1024.size Facts₀.inb_S8x1024x1024_S1x1024x1024_1_0_0))
                    (k0_pay2 (View.ld x0 (Rect.unit (s := S1024x8) ![0, 0] S1024x1.size Facts₀.inb_S1024x8_S1024x1_0_0))
                      (View.ld x1 (Rect.unit (s := S8x1024x1024) ![0, 0, 0] S1x1024x1024.size Facts₀.inb_S8x1024x1024_S1x1024x1024_0_0_0))))))))) := by
  unfold out0_A_2
  rw [View.read_writes_eq_canon _ _ _ (cover0_A_2 c i arg1 harg1 arg2 harg2 arg3 harg3 x0 x1)]
  unfold kernelRun0_A
  dsimp only
  sl_unfold_words
  rw [View.canon_cons_unit_zero (S := S1024x1024) off_zero]
  simp only [View.readCov_cons_toLoadRect, View.readAt_eq_ld, harg1.read_unread, harg2.read_unread]

end AnyValues

/-! ## The stores' values through one table's contribution -/

theorem pay2_eq (x : Vec Ideal S1024x1 .i32) (w : Vec Ideal S1x1024x1024 .bf16) : k0_pay2 (F := Ideal) x w = addend x w := rfl

theorem pay3_apply (x : Vec Ideal S1024x1 .i32) (w : Vec Ideal S1x1024x1024 .bf16) (acc : Vec Ideal S1024x1024 .f32)
    (j : S1024x1024.Idx) : k0_pay3 (F := Ideal) x w acc j = acc j + addend x w j := by
  show shapeCast S1024x1024 acc Facts₀.shapeCasts_S1024x1024_S1024x1024 j + addend x w j = _
  rw [shapeCast_self]

theorem pay5_apply (x : Vec Ideal S1024x1 .i32) (w : Vec Ideal S1x1024x1024 .bf16) (acc : Vec Ideal S1024x1024 .f32)
    (j : S1024x1024.Idx) : k0_pay5 (F := Ideal) (k0_pay4 x) w acc j = acc j + addend x w j := by
  show shapeCast S1024x1024 acc Facts₀.shapeCasts_S1024x1024_S1024x1024 j + addend x w j = _
  rw [shapeCast_self]

theorem pay6_apply (x : Vec Ideal S1024x1 .i32) (w : Vec Ideal S1x1024x1024 .bf16) (acc : Vec Ideal S1024x1024 .f32)
    (j : S1024x1024.Idx) :
    k0_pay6 (F := Ideal) (iota .tc S1024x1024 32 [1] Facts₀.iota_S1024x1024_d1_w32) x w acc j = acc j + addend x w j := by
  show shapeCast S1024x1024 acc Facts₀.shapeCasts_S1024x1024_S1024x1024 j + addend x w j = _
  rw [shapeCast_self]

theorem pay7_apply (x : Vec Ideal S1024x1 .i32) (w : Vec Ideal S1x1024x1024 .bf16) (acc : Vec Ideal S1024x1024 .f32)
    (j : S1024x1024.Idx) :
    k0_pay7 (F := Ideal) (iota .tc S1024x1024 32 [1] Facts₀.iota_S1024x1024_d1_w32) x w acc j = acc j + addend x w j := by
  show shapeCast S1024x1024 acc Facts₀.shapeCasts_S1024x1024_S1024x1024 j + addend x w j = _
  rw [shapeCast_self]

theorem pay8_apply (x : Vec Ideal S1024x1 .i32) (w : Vec Ideal S1x1024x1024 .bf16) (acc : Vec Ideal S1024x1024 .f32)
    (j : S1024x1024.Idx) :
    k0_pay8 (F := Ideal) (iota .tc S1024x1024 32 [1] Facts₀.iota_S1024x1024_d1_w32) x w acc j = acc j + addend x w j := by
  show shapeCast S1024x1024 acc Facts₀.shapeCasts_S1024x1024_S1024x1024 j + addend x w j = _
  rw [shapeCast_self]

theorem pay9_apply (x : Vec Ideal S1024x1 .i32) (w : Vec Ideal S1x1024x1024 .bf16) (acc : Vec Ideal S1024x1024 .f32)
    (j : S1024x1024.Idx) :
    k0_pay9 (F := Ideal) (iota .tc S1024x1024 32 [1] Facts₀.iota_S1024x1024_d1_w32) x w acc j = acc j + addend x w j := by
  show shapeCast S1024x1024 acc Facts₀.shapeCasts_S1024x1024_S1024x1024 j + addend x w j = _
  rw [shapeCast_self]

theorem pay1_apply (x : Vec Ideal S1024x1 .i32) (w : Vec Ideal S1x1024x1024 .bf16) (acc : Vec Ideal S1024x1024 .f32)
    (j : S1024x1024.Idx) :
    k0_pay1 (F := Ideal) (k0_pay10 (iota .tc S1024x1024 32 [1] Facts₀.iota_S1024x1024_d1_w32) x) w acc j = acc j + addend x w j := by
  show shapeCast S1024x1024 acc Facts₀.shapeCasts_S1024x1024_S1024x1024 j + addend x w j = _
  rw [shapeCast_self]

/-! ## One contribution over the block's own column and the table's own slab -/

/-- Column `o` of the block of index words, read at row `r`. -/
theorem col_apply (x0 : Vec Ideal S1024x8 .i32) (o : Nat) (ho : o < 8)
    (inb : ∀ a, (![0, o] : Fin S1024x8.rank → Nat) a + S1024x1.size a ≤ S1024x8.size a) (r : Fin 1024) :
    View.ld x0 (Rect.unit (s := S1024x8) ![0, o] S1024x1.size inb) (ix2 r (0 : Fin 1)) = x0 (ix2 r (⟨o, ho⟩ : Fin 8)) :=
  congrArg x0 (funext fun a => Fin.ext (by
    match a with
    | ⟨0, _⟩ => show 0 + 1 * r.val = r.val; omega
    | ⟨1, _⟩ => show o + 1 * 0 = o; omega))

/-- Slab `o` of the tables, read at `(0, k, d)`. -/
theorem slab_ld_apply (x1 : Vec Ideal S8x1024x1024 .bf16) (o : Nat) (ho : o < 8)
    (inb : ∀ a, (![o, 0, 0] : Fin S8x1024x1024.rank → Nat) a + S1x1024x1024.size a ≤ S8x1024x1024.size a) (k d : Fin 1024) :
    View.ld x1 (Rect.unit (s := S8x1024x1024) ![o, 0, 0] S1x1024x1024.size inb) (ix3 (0 : Fin 1) k d)
      = x1 (ix3 (⟨o, ho⟩ : Fin 8) k d) :=
  congrArg x1 (funext fun a => Fin.ext (by
    match a with
    | ⟨0, _⟩ => show o + 1 * 0 = o; omega
    | ⟨1, _⟩ => show 0 + 1 * k.val = k.val; omega
    | ⟨2, _⟩ => show 0 + 1 * d.val = d.val; omega))

/-- Table `o`'s contribution at `(r, d)`, when the block's word `(r, o)` names row `v`: the table's entry `(o, v, d)`. -/
theorem addend_ld_apply (x0 : Vec Ideal S1024x8 .i32) (x1 : Vec Ideal S8x1024x1024 .bf16) (o : Nat) (ho : o < 8)
    (inb0 : ∀ a, (![0, o] : Fin S1024x8.rank → Nat) a + S1024x1.size a ≤ S1024x8.size a)
    (inb1 : ∀ a, (![o, 0, 0] : Fin S8x1024x1024.rank → Nat) a + S1x1024x1024.size a ≤ S8x1024x1024.size a)
    (r d v : Fin 1024) (hv : (x0 (ix2 r (⟨o, ho⟩ : Fin 8))).toNat = v.val) :
    addend (View.ld x0 (Rect.unit (s := S1024x8) ![0, o] S1024x1.size inb0))
        (View.ld x1 (Rect.unit (s := S8x1024x1024) ![o, 0, 0] S1x1024x1024.size inb1)) (ix2 r d)
      = x1 (ix3 (⟨o, ho⟩ : Fin 8) v d) := by
  have hc := col_apply x0 o ho inb0 r
  have hlt : (View.ld x0 (Rect.unit (s := S1024x8) ![0, o] S1024x1.size inb0) (ix2 r (0 : Fin 1))).toNat < 1024 := by
    rw [hc, hv]; exact v.isLt
  rw [addend_apply _ _ r d hlt, slab_ld_apply x1 o ho inb1]
  have e : (⟨(View.ld x0 (Rect.unit (s := S1024x8) ![0, o] S1024x1.size inb0) (ix2 r (0 : Fin 1))).toNat, hlt⟩ : Fin 1024) = v :=
    Fin.ext ((congrArg BitVec.toNat hc).trans hv)
  rw [e]

/-! ## The block at an index -/

/-- With every index word of the block below 1024, word `(r, l)` naming row `ρ r l`, the block holds at `(r, d)`
    the sum over the eight tables of the entry `(l, ρ r l, d)`. -/
theorem out_apply (c : Dev nD) (i : grid0.Coords) (arg1 : Memref sig .tc .vmem S1024x8 .i32) (harg1 : arg1.IsWhole)
    (arg2 : Memref sig .tc .vmem S8x1024x1024 .bf16) (harg2 : arg2.IsWhole) (arg3 : Memref sig .tc .vmem S1024x1024 .f32)
    (harg3 : arg3.IsWhole) (x0 : Vec Ideal S1024x8 .i32) (x1 : Vec Ideal S8x1024x1024 .bf16)
    (ρ : Fin 1024 → Fin 8 → Fin 1024) (hρ : ∀ r l, (x0 (ix2 r l)).toNat = (ρ r l).val) (r d : Fin 1024) :
    out0_A_2 (F := Ideal) c i arg1 harg1 arg2 harg2 arg3 harg3 x0 x1 (ix2 r d) = ∑ l : Fin 8, x1 (ix3 l (ρ r l) d) := by
  rw [out_chain, pay1_apply, pay9_apply, pay8_apply, pay7_apply, pay6_apply, pay5_apply, pay3_apply, pay2_eq]
  rw [addend_ld_apply x0 x1 0 (by decide) _ _ r d (ρ r ⟨0, by decide⟩) (hρ r _),
    addend_ld_apply x0 x1 1 (by decide) _ _ r d (ρ r ⟨1, by decide⟩) (hρ r _),
    addend_ld_apply x0 x1 2 (by decide) _ _ r d (ρ r ⟨2, by decide⟩) (hρ r _),
    addend_ld_apply x0 x1 3 (by decide) _ _ r d (ρ r ⟨3, by decide⟩) (hρ r _),
    addend_ld_apply x0 x1 4 (by decide) _ _ r d (ρ r ⟨4, by decide⟩) (hρ r _),
    addend_ld_apply x0 x1 5 (by decide) _ _ r d (ρ r ⟨5, by decide⟩) (hρ r _),
    addend_ld_apply x0 x1 6 (by decide) _ _ r d (ρ r ⟨6, by decide⟩) (hρ r _),
    addend_ld_apply x0 x1 7 (by decide) _ _ r d (ρ r ⟨7, by decide⟩) (hρ r _)]
  rw [Fin.sum_univ_eight]
  rfl

end Cert.KernelIdeal.Embed

end
-- ==== Proof.KernelValue.lean ====
/-
  The kernel's program, read as a value: what its result array holds after the run.

  Before the region the host flattens the index words to 16384 rows of 8 and clips every word into `[0, 1023]`, and
  changes the tables' format (the identity at the ideal values). The region runs the body at 16 grid points; point `t`
  is given rows `1024 t … 1024 t + 1023` of the clipped words, all eight tables, and writes rows
  `1024 t … 1024 t + 1023` of the flattened result. After the region the host views the flattened result as
  `[8, 2048, 1024]`.

  A clipped word, read as a natural number, is the row `row v` its index word `v` selects (`clip_toNat`); so by the
  body's value (`out_apply`) point `t` writes its block of the flattened specification `Gflat`. The sixteen blocks
  cover the 16384 rows (row `R` lies in block `R / 1024`), so the flattened result is `Gflat`, and viewed as
  `[8, 2048, 1024]` it is `G` of the index words and the tables. No condition on the index words is used: clipping
  makes every word name a row.
-/
import proofs.«415377_j84370337562892_3_alg».proof.Proof.Gen.KernelIdeal.Frame
import proofs.«415377_j84370337562892_3_alg».proof.Proof.KernelBody
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Embed

open Cert.KernelIdeal Cert.KernelIdeal.Gen Idealize.ShloMosaic Idealize.ShloMosaic.TcCoe Idealize.ShloMosaic.Tactic
open Idealize.ShloMosaic.ValueIdx Idealize.SL Idealize.SL.Sem Idealize.ShloMosaic.StableHlo Cert.Embed
open Idealize.ShloMosaic.Pipeline (Dat)

variable (m : (ℓ : Loc nD τ sig) → Buf (Elt Ideal) ℓ) (ρ : Dev nD → PrngReg)

/-- The index words as launched. -/
abbrev xarr (c : Dev nD) : IVec S8x2048x8 32 := m ((c : Thread nD τ).loc main_arg0)
/-- The tables as launched. -/
abbrev warr (c : Dev nD) : FVec Ideal S8x1024x1024 .f32 := m ((c : Thread nD τ).loc main_arg1)

/-! ## What the region finds: the clipped words and the tables -/

/-- The clipped-word array is the flattened index words under a maximum with 0 and a minimum with 1023. -/
theorem V_words (c : Dev nD) : (V m c main_v1 : S16384x8.Idx → BitVec 32)
    = minsi (broadcastInDim S16384x8 ![] Facts₀.bcast_S_S16384x8 (constantI S_ 32 1023#32))
        (maxsi (broadcastInDim S16384x8 ![] Facts₀.bcast_S_S16384x8 (constantI S_ 32 0#32))
          (shapeCast S16384x8 (xarr m c) Facts₀.shapeCasts_S8x2048x8_S16384x8)) := by
  dsimp only [V, V0]
  simp only [hostOps0, hostOps0_1, hostOps0_2, List.flatten_cons, List.flatten_nil, List.append_nil, List.cons_append,
    List.nil_append]
  after_results
  rfl

/-- The table array the region stages is the launched tables after a change of format. -/
theorem V_tables (c : Dev nD) : (V m c main_v2 : S8x1024x1024.Idx → EReal)
    = truncf .bf16 (warr m c) Facts₀.bitsLt_bf16_f32 := by
  dsimp only [V, V0]
  simp only [hostOps0, hostOps0_1, hostOps0_2, List.flatten_cons, List.flatten_nil, List.append_nil, List.cons_append,
    List.nil_append]
  after_results

/-- The clipped word of flattened row `R`, table `l`: the clip of index word `(R / 2048, R % 2048, l)`. -/
theorem V_words_apply (c : Dev nD) (R : Fin 16384) (l : Fin 8) :
    (V m c main_v1 : S16384x8.Idx → BitVec 32) (ix2 R l)
      = clip (xarr m c (ix3 (⟨R.val / 2048, by have := R.isLt; omega⟩ : Fin 8)
          (⟨R.val % 2048, Nat.mod_lt _ (by decide)⟩ : Fin 2048) l)) := by
  rw [V_words]
  show IntOp.minsi 1023#32 (IntOp.maxsi 0#32
    (shapeCast S16384x8 (xarr m c) Facts₀.shapeCasts_S8x2048x8_S16384x8 (ix2 R l))) = _
  rw [shapeCast_apply (xarr m c) Facts₀.shapeCasts_S8x2048x8_S16384x8 (ix2 R l)
    (ix3 (⟨R.val / 2048, by have := R.isLt; omega⟩ : Fin 8) (⟨R.val % 2048, Nat.mod_lt _ (by decide)⟩ : Fin 2048) l) (by
      rw [Shape.rowMajor_val_three, Shape.rowMajor_val_two]
      show (R.val / 2048 * 2048 + R.val % 2048) * 8 + l.val = R.val * 8 + l.val
      omega)]
  rfl

/-- A table entry as the region finds it is the launched entry. -/
theorem V_tables_apply (c : Dev nD) (i : S8x1024x1024.Idx) :
    (V m c main_v2 : S8x1024x1024.Idx → EReal) i = warr m c i := by
  rw [V_tables]; rfl

/-! ## The blocks a grid point is given -/

/-- The index maps over the grid: the word rows and the result rows move with the point, the tables stay. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Point `t`'s block of clipped words, -/
abbrev xblk (c : Dev nD) (t : Fin cfg0.N) : Vec Ideal S1024x8 .i32 := iblk m c 0 t
/-- and its block of the tables (all of them). -/
abbrev wblk (c : Dev nD) (t : Fin cfg0.N) : Vec Ideal S8x1024x1024 .bf16 := iblk m c 1 t

/-- The flattened row that row `r` of point `t`'s block is. -/
def rowAt (t : Fin cfg0.N) (r : Fin 1024) : Fin 16384 :=
  ⟨t.val * 1024 + r.val, by have hN : cfg0.N = 16 := N_0; have := t.isLt; have := r.isLt; omega⟩

theorem xblk_apply (c : Dev nD) (t : Fin cfg0.N) (r : Fin 1024) (l : Fin 8) :
    xblk m c t (ix2 r l) = (V m c main_v1 : S16384x8.Idx → BitVec 32) (ix2 (rowAt t r) l) := by
  show (V m c main_v1 : S16384x8.Idx → BitVec 32) (((cfg0.win 0).blk t).view.emb (ix2 r l)) = _
  refine congrArg _ (funext fun a => Fin.ext ?_)
  obtain ⟨e0, e1, -⟩ := idx_facts t
  match a with
  | ⟨0, _⟩ => show win0_0.index t (0 : Fin 2) * 1024 + 1 * r.val = t.val * 1024 + r.val; rw [e0]; omega
  | ⟨1, _⟩ => show win0_0.index t (1 : Fin 2) * 8 + 1 * l.val = l.val; rw [e1]; omega

theorem wblk_apply (c : Dev nD) (t : Fin cfg0.N) (l : Fin 8) (k d : Fin 1024) :
    wblk m c t (ix3 l k d) = warr m c (ix3 l k d) := by
  refine Eq.trans ?_ (V_tables_apply m c (ix3 l k d))
  show (V m c main_v2 : S8x1024x1024.Idx → EReal) (((cfg0.win 1).blk t).view.emb (ix3 l k d)) = _
  refine congrArg _ (funext fun a => Fin.ext ?_)
  obtain ⟨-, -, e0, e1, e2, -⟩ := idx_facts t
  match a with
  | ⟨0, _⟩ => show win0_1.index t (0 : Fin 3) * 8 + 1 * l.val = l.val; rw [e0]; omega
  | ⟨1, _⟩ => show win0_1.index t (1 : Fin 3) * 1024 + 1 * k.val = k.val; rw [e1]; omega
  | ⟨2, _⟩ => show win0_1.index t (2 : Fin 3) * 1024 + 1 * d.val = d.val; rw [e2]; omega

/-- The table row that word `(r, l)` of point `t`'s block names. -/
def rowOf (c : Dev nD) (t : Fin cfg0.N) (r : Fin 1024) (l : Fin 8) : Fin 1024 :=
  row (xarr m c (ix3 (⟨(rowAt t r).val / 2048, by have := (rowAt t r).isLt; omega⟩ : Fin 8)
    (⟨(rowAt t r).val % 2048, Nat.mod_lt _ (by decide)⟩ : Fin 2048) l))

/-- Every word of the block is below 1024 and names that row. -/
theorem xblk_row (c : Dev nD) (t : Fin cfg0.N) (r : Fin 1024) (l : Fin 8) :
    (xblk m c t (ix2 r l)).toNat = (rowOf m c t r l).val := by
  rw [xblk_apply, V_words_apply, clip_toNat]
  rfl

/-! ## What a grid point writes back -/

/-- Point `t` writes back its block of the flattened specification. -/
theorem flushed_eq (c : Dev nD) (t : Fin cfg0.N) :
    (dats m 0 c).flushed 2 t = ((cfg0.win 2).blk t).view.read (Elt Ideal) (Gflat (xarr m c) (warr m c)) := by
  show (cfg0.win 2).cut (grid0.coords t) ((dats m 0 c).after 2 t) = _
  rw [after0_2]
  unfold outsAt0
  funext y
  obtain ⟨r, d, rfl⟩ : ∃ (r : Fin 1024) (d : Fin 1024), y = ix2 r d := ⟨y 0, y 1, eq_ix2 y⟩
  show out0_A_2 (F := Ideal) c (grid0.coords t) (ms0_0 t) (hs0_0 t) (ms0_1 t) (hs0_1 t) (ms0_2 t) (hs0_2 t)
      (xblk m c t) (wblk m c t) (ix2 r d)
    = Gflat (xarr m c) (warr m c) (((cfg0.win 2).blk t).view.emb (ix2 r d))
  refine (out_apply c (grid0.coords t) (ms0_0 t) (hs0_0 t) (ms0_1 t) (hs0_1 t) (ms0_2 t) (hs0_2 t)
    (xblk m c t) (wblk m c t) (rowOf m c t) (xblk_row m c t) r d).trans ?_
  have hemb : ((cfg0.win 2).blk t).view.emb (ix2 r d) = ix2 (rowAt t r) d := by
    funext a; refine Fin.ext ?_
    obtain ⟨-, -, -, -, -, e0, e1⟩ := idx_facts t
    match a with
    | ⟨0, _⟩ => show win0_2.index t (0 : Fin 2) * 1024 + 1 * r.val = t.val * 1024 + r.val; rw [e0]; omega
    | ⟨1, _⟩ => show win0_2.index t (1 : Fin 2) * 1024 + 1 * d.val = d.val; rw [e1]; omega
  rw [hemb]
  refine Finset.sum_congr rfl fun l _ => ?_
  rw [wblk_apply]
  rfl

/-! ## The blocks cover the flattened result -/

theorem mem_blk (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- Row `R` of the flattened result lies in the block of point `R / 1024`. -/
theorem cover (i : S16384x1024.Idx) :
    ∃ t : Fin cfg0.N, (cfg0.win 2).flush t = true ∧ i ∈ ((cfg0.win 2).blk t).view.set := by
  have hi0 : (i 0).val < 16384 := idx2_lt0 i
  have hi1 : (i 1).val < 1024 := idx2_lt1 i
  have hN : cfg0.N = 16 := N_0
  refine ⟨⟨(i 0).val / 1024, by rw [hN]; omega⟩, flush0_2 _, ?_⟩
  rw [mem_blk]
  obtain ⟨-, -, -, -, -, e0, e1⟩ := idx_facts ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e0]; show (i 0).val / 1024 * 1024 ≤ (i 0).val ∧ (i 0).val < (i 0).val / 1024 * 1024 + 1024; omega
  | ⟨1, _⟩ =>
    show win0_2.index _ (1 : Fin 2) * 1024 ≤ (i 1).val ∧ (i 1).val < win0_2.index _ (1 : Fin 2) * 1024 + 1024
    rw [e1]; omega

/-- So after the region the flattened result array is `Gflat` of the index words and the tables. -/
theorem final (c : Dev nD) : (dats m 0 c).arrAt 2 cfg0.N = Gflat (xarr m c) (warr m c) :=
  (dats m 0 c).arrAt_eq_of_cover 2 (Gflat (xarr m c) (warr m c)) (fun t _ => flushed_eq m c t) cover

/-! ## The host's view of it, and the run -/

/-- The program's result: the flattened result viewed as `[8, 2048, 1024]`, which is `G`. -/
theorem result_eq (c : Dev nD) :
    Pipeline.afterTail₀ cfgs (dats m) 0 (V0 m) [hostOps1] c main_v4 = G (xarr m c) (warr m c) := by
  unfold Pipeline.afterTail₀
  show StableHlo.after hostOps1 _ (Proc.devRef .tc main_v4) = _
  after_results
  have hW : (Pipeline.withArrays (cfgs 0).spec c (V0 m c) (fun w => (dats m 0 c).arrAt w (cfgs 0).N)
      (Proc.devRef .tc main_v3) : S16384x1024.Idx → EReal) = Gflat (xarr m c) (warr m c) :=
    (Pipeline.withArrays_arr spec0 launch0.win.arr_inj c _ _ 2).trans (final m c)
  exact (congrArg (fun W : S16384x1024.Idx → EReal =>
    shapeCast S8x2048x1024 W Facts₀.shapeCasts_S16384x1024_S8x2048x1024) hW).trans (shapeCast_Gflat _ _ _)

/-- Every weakly fair execution of the kernel's program at the ideal values ends with the result array at `G` of the
    launched index words and tables, and the two argument arrays as launched. -/
theorem run : θ_run defs (onTc (τ := τ) (main (F := Ideal))) ⟨m, fun _ => 0, ρ⟩ fun r => ∀ c : Dev nD,
      r.2.mem ((c.tc : Thread nD τ).loc main_v4) = G (xarr m c) (warr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Embed

end
-- ==== Proof.RefValue.lean ====
/-
  The reference program's result, index by index.

  The reference pairs every index word `x n s l` with its table number `l` (both with NumPy's rule for a negative index:
  the array's extent is added to it), gathers the row `(l, x n s l)` of the tables — the gather reads both coordinates as
  signed integers and clamps them into the table's range — and sums the eight gathered rows over `l`.

  The table number `l` is below 8, so it is never negative and already in range. For an index word that is not negative
  nothing is added, and the clamped read is the row `row (x n s l)` of the specification. So the result is
  `∑ l, w l (row (x n s l)) d`: the specification's `G`.
-/
import proofs.«415377_j84370337562892_3_alg».proof.Proof.Gen.ReferenceIdeal.Read
import proofs.«415377_j84370337562892_3_alg».proof.Proof.EmbedSpec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Embed

/-! ## The two index columns -/

/-- A table number below 8 is not negative, so NumPy's rule leaves it alone. -/
theorem level_word : ∀ l : Fin 8,
    Scalar.select (IntOp.cmpi .slt (BitVec.ofNat 32 l.val) 0#32) (IntOp.addi (BitVec.ofNat 32 l.val) 8#32) (BitVec.ofNat 32 l.val)
      = BitVec.ofNat 32 l.val := by decide

/-- Read as a signed integer and clamped into `[0, 7]` it is the table number itself. -/
theorem level_clamp : ∀ l : Fin 8, min (BitVec.ofNat 32 l.val).toInt.toNat (8 - 1) = l.val := by decide

/-- The table-number column at `(n, s, l)` is the word `l`. -/
theorem lvl_apply (n : Fin 8) (s : Fin 2048) (l : Fin 8) :
    val_main_v12 (F := Ideal) (ix3 n s l) = BitVec.ofNat 32 l.val := by
  rw [val_main_v12_apply, val_main_v6_apply, val_main_v3_apply, val_main_v5_apply, val_main_v1_apply, val_main_v2_apply,
    val_main_v4_apply, val_main_v0_apply, val_main_c_apply, val_main_c_0_apply]
  exact level_word l

/-- The index column at `(n, s, l)` is the index word with 1024 added when it is negative. -/
theorem idx_apply (x0 : IVec S8x2048x8 32) (n : Fin 8) (s : Fin 2048) (l : Fin 8) :
    val_main_v11 (F := Ideal) x0 (ix3 n s l) = wrap (x0 (ix3 n s l)) := by
  rw [val_main_v11_apply, val_main_v8_apply, val_main_v10_apply, val_main_v7_apply, val_main_v9_apply, val_main_c_1_apply,
    val_main_c_2_apply]
  rfl

/-- The pair of start indices: component 0 is the table number, -/
theorem start0_apply (x0 : IVec S8x2048x8 32) (n : Fin 8) (s : Fin 2048) (l : Fin 8) :
    val_main_v15 (F := Ideal) x0 (ix4 n s l (0 : Fin 2)) = BitVec.ofNat 32 l.val := by
  unfold val_main_v15
  rw [concatenate_pair_apply_left (t := S8x2048x8x2) (s₁ := S8x2048x8x1) (s₂ := S8x2048x8x1) (3 : Fin S8x2048x8x2.rank) _ _ _
    (ix4 n s l (0 : Fin 2)) rfl (ix4 n s l (0 : Fin 1))
    (fun b => by match b with | ⟨0, _⟩ => rfl | ⟨1, _⟩ => rfl | ⟨2, _⟩ => rfl | ⟨3, _⟩ => rfl)]
  rw [val_main_v13_apply]
  exact lvl_apply n s l

/-- component 1 the index word, wrapped. -/
theorem start1_apply (x0 : IVec S8x2048x8 32) (n : Fin 8) (s : Fin 2048) (l : Fin 8) :
    val_main_v15 (F := Ideal) x0 (ix4 n s l (1 : Fin 2)) = wrap (x0 (ix3 n s l)) := by
  unfold val_main_v15
  rw [concatenate_pair_apply_right (t := S8x2048x8x2) (s₁ := S8x2048x8x1) (s₂ := S8x2048x8x1) (3 : Fin S8x2048x8x2.rank) _ _ _
    (ix4 n s l (1 : Fin 2)) rfl rfl (ix4 n s l (0 : Fin 1))
    (fun b hb => by
      match b with
      | ⟨0, _⟩ => rfl
      | ⟨1, _⟩ => rfl
      | ⟨2, _⟩ => rfl
      | ⟨3, _⟩ => exact absurd rfl hb)
    rfl]
  rw [val_main_v14_apply]
  have e : idx_main_v14 (ix4 n s l (0 : Fin 1)) = ix3 n s l :=
    funext fun a => by match a with | ⟨0, _⟩ => rfl | ⟨1, _⟩ => rfl | ⟨2, _⟩ => rfl
  rw [e]
  exact idx_apply x0 n s l

/-! ## The gather at an index -/

/-- The gathered element `(n, s, l, d)`, when the index word is not negative: entry `d` of the row the word selects in
    table `l`. On the table axis the start is the table number, on the row axis the index word read signed and clamped, on
    the column axis the slice is whole and `d` is the offset. -/
theorem gathered_apply (x0 : IVec S8x2048x8 32) (x1 : FVec Ideal S8x1024x1024 .f32) (n : Fin 8) (s : Fin 2048) (l : Fin 8)
    (d : Fin 1024) (hx : 0 ≤ (x0 (ix3 n s l)).toInt) :
    val_main_v16 (F := Ideal) x0 x1 (ix4 n s l d) = x1 (ix3 l (row (x0 (ix3 n s l))) d) := by
  unfold val_main_v16 Host.gather
  refine congrArg x1 (funext fun a => Fin.ext ?_)
  match a with
  | ⟨0, _⟩ =>
    show gather_S8x1024x1024_S8x2048x8x2_S8x2048x8x1024_3_01_n_n_01_3_111024.start (ix4 n s l d) (val_main_v15 (F := Ideal) x0) (0 : Fin S8x1024x1024.rank)
      + gather_S8x1024x1024_S8x2048x8x2_S8x2048x8x1024_3_01_n_n_01_3_111024.batchCoord (ix4 n s l d) (0 : Fin S8x1024x1024.rank)
      + gather_S8x1024x1024_S8x2048x8x2_S8x2048x8x1024_3_01_n_n_01_3_111024.offCoord (ix4 n s l d) (0 : Fin S8x1024x1024.rank) = l.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin S8x1024x1024.rank) ∈ gather_S8x1024x1024_S8x2048x8x2_S8x2048x8x1024_3_01_n_n_01_3_111024.startIndexMap by decide)]
    have hsi : gather_S8x1024x1024_S8x2048x8x2_S8x2048x8x1024_3_01_n_n_01_3_111024.siIdx (ix4 n s l d)
        ⟨List.idxOf (0 : Fin S8x1024x1024.rank) gather_S8x1024x1024_S8x2048x8x2_S8x2048x8x1024_3_01_n_n_01_3_111024.startIndexMap,
          List.idxOf_lt_length_iff.2 (by decide)⟩ = ix4 n s l (0 : Fin 2) := by
      funext b; refine Fin.ext ?_
      match b with
      | ⟨0, _⟩ => rfl
      | ⟨1, _⟩ => rfl
      | ⟨2, _⟩ => rfl
      | ⟨3, _⟩ => rfl
    rw [hsi, start0_apply]
    exact level_clamp l
  | ⟨1, _⟩ =>
    show gather_S8x1024x1024_S8x2048x8x2_S8x2048x8x1024_3_01_n_n_01_3_111024.start (ix4 n s l d) (val_main_v15 (F := Ideal) x0) (1 : Fin S8x1024x1024.rank)
      + gather_S8x1024x1024_S8x2048x8x2_S8x2048x8x1024_3_01_n_n_01_3_111024.batchCoord (ix4 n s l d) (1 : Fin S8x1024x1024.rank)
      + gather_S8x1024x1024_S8x2048x8x2_S8x2048x8x1024_3_01_n_n_01_3_111024.offCoord (ix4 n s l d) (1 : Fin S8x1024x1024.rank)
      = (row (x0 (ix3 n s l))).val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin S8x1024x1024.rank) ∈ gather_S8x1024x1024_S8x2048x8x2_S8x2048x8x1024_3_01_n_n_01_3_111024.startIndexMap by decide)]
    have hsi : gather_S8x1024x1024_S8x2048x8x2_S8x2048x8x1024_3_01_n_n_01_3_111024.siIdx (ix4 n s l d)
        ⟨List.idxOf (1 : Fin S8x1024x1024.rank) gather_S8x1024x1024_S8x2048x8x2_S8x2048x8x1024_3_01_n_n_01_3_111024.startIndexMap,
          List.idxOf_lt_length_iff.2 (by decide)⟩ = ix4 n s l (1 : Fin 2) := by
      funext b; refine Fin.ext ?_
      match b with
      | ⟨0, _⟩ => rfl
      | ⟨1, _⟩ => rfl
      | ⟨2, _⟩ => rfl
      | ⟨3, _⟩ => rfl
    rw [hsi, start1_apply, wrap_of_nonneg _ hx]
    rfl
  | ⟨2, _⟩ =>
    show gather_S8x1024x1024_S8x2048x8x2_S8x2048x8x1024_3_01_n_n_01_3_111024.start (ix4 n s l d) (val_main_v15 (F := Ideal) x0) (2 : Fin S8x1024x1024.rank)
      + gather_S8x1024x1024_S8x2048x8x2_S8x2048x8x1024_3_01_n_n_01_3_111024.batchCoord (ix4 n s l d) (2 : Fin S8x1024x1024.rank)
      + gather_S8x1024x1024_S8x2048x8x2_S8x2048x8x1024_3_01_n_n_01_3_111024.offCoord (ix4 n s l d) (2 : Fin S8x1024x1024.rank) = d.val
    rw [GatherDims.batchCoord_eq_zero _ _ _ List.not_mem_nil]
    unfold GatherDims.start GatherDims.offCoord
    rw [dif_neg (show ¬(2 : Fin S8x1024x1024.rank) ∈ gather_S8x1024x1024_S8x2048x8x2_S8x2048x8x1024_3_01_n_n_01_3_111024.startIndexMap by decide),
      dif_pos (show (2 : Fin S8x1024x1024.rank) ∈ gather_S8x1024x1024_S8x2048x8x2_S8x2048x8x1024_3_01_n_n_01_3_111024.sKept by decide)]
    show 0 + 0 + d.val = d.val
    omega

/-! ## The result -/

/-- With no index word negative, the reference's result is the specification's `G`: the initial value of the sum is the
    number 0, and each gathered row is the row the index word selects. -/
theorem result_eq (x0 : IVec S8x2048x8 32) (x1 : FVec Ideal S8x1024x1024 .f32) (hx : ∀ i, 0 ≤ (x0 i).toInt) :
    val_main_v17 (F := Ideal) x0 x1 = G x0 x1 := by
  funext j
  rw [val_main_v17_apply]
  show Ideal.ofBits .f32 0x00000000#32 + ∑ k : Fin 8, val_main_v16 (F := Ideal) x0 x1 (idx_main_v17 j k)
    = ∑ l : Fin 8, x1 (ix3 l (row (x0 (ix3 (⟨(j 0).val, (j 0).isLt⟩ : Fin 8) (⟨(j 1).val, (j 1).isLt⟩ : Fin 2048) l)))
        (⟨(j 2).val, (j 2).isLt⟩ : Fin 1024))
  rw [Ideal.ofBits_zero_f32, zero_add]
  refine Finset.sum_congr rfl fun k _ => ?_
  have e : idx_main_v17 j k
      = ix4 (⟨(j 0).val, (j 0).isLt⟩ : Fin 8) (⟨(j 1).val, (j 1).isLt⟩ : Fin 2048) k (⟨(j 2).val, (j 2).isLt⟩ : Fin 1024) :=
    funext fun a => by match a with | ⟨0, _⟩ => rfl | ⟨1, _⟩ => rfl | ⟨2, _⟩ => rfl | ⟨3, _⟩ => rfl
  rw [e, gathered_apply x0 x1 _ _ _ _ (hx _)]

end Cert.ReferenceIdeal.RefValue

end
-- ==== Proof.PreDomain.lean ====
/-
  What the precondition says of the index words.

  The precondition is the conjunction of two `all`s: every table entry is finite, and every index word `v` satisfies
  `0 ≤ v` and `v < 1024` as a signed integer. An `all` that is true was true of every element, so under the
  precondition every index word lies in `[0, 1024)`: it names a row of its table, with no wrap-around and no clamping.
-/
import proofs.«415377_j84370337562892_3_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Domain

open Cert.Pre_finite_inputs Cert.Pre_finite_inputs.Gen Idealize.ShloMosaic Idealize.ShloMosaic.ValueIdx

/-- The scalar shape has one index. -/
instance : Subsingleton S_.Idx := ⟨fun _ _ => funext fun d => d.elim0⟩

/-- Under the precondition every index word is at least 0 and below 1024. -/
theorem index_range (x : IVec S8x2048x8 32) (w : FVec Ideal S8x1024x1024 .f32)
    (h : fn (F := Ideal) x w = fun _ => 1#1) (i : S8x2048x8.Idx) : 0 ≤ (x i).toInt ∧ (x i).toInt < 1024 := by
  have h0 := congrFun h ix0
  dsimp only [fn] at h0
  obtain ⟨-, hall⟩ := IntOp.andi_eq_one.mp h0
  have hi := Host.reduce_andi_all _ _ _ _ ix0 hall i
  obtain ⟨hge, hlt⟩ := IntOp.andi_eq_one.mp hi
  have hge' := IntOp.cmpi_sge.mp hge
  have hlt' := IntOp.cmpi_slt.mp hlt
  have z : (0#32 : BitVec 32).toInt = 0 := by decide
  have k : (1024#32 : BitVec 32).toInt = 1024 := by decide
  exact ⟨z ▸ hge', k ▸ hlt'⟩

end Cert.Pre_finite_inputs.Domain

end
-- ==== Proof.lean ====
/-
  A multi-level embedding lookup computed by one-hot matrix products equals the lookup by gather, over the extended
  reals, for index words in range.

  For index words `x : [8, 2048, 8]` and eight tables `w : [8, 1024, 1024]` both programs compute
  `out n s d = ∑ l, w l (x n s l) d`.

  * The kernel's program clips every index word into `[0, 1023]`, and for each table multiplies the one-hot matrix of
    the clipped words (1 where the word equals the column number, 0 elsewhere) with the table, adding the eight
    products. On the extended reals `0 · a = 0` and `1 · a = a` for every `a`, so each product picks the table row the
    word names — no finiteness of the tables is used — and the eight are summed; addition of extended reals is
    commutative and associative, so the order in which they are added does not matter. Its result is the specification
    `G` for EVERY index word, `row` being "read signed, clamped into `[0, 1023]`" (KernelValue.lean).
  * The reference adds 1024 to a negative index word (NumPy's rule) and gathers with clamping, then sums the eight
    gathered rows. For a word that is not negative this is the same row, and its result is `G` too (RefValue.lean).

  The two differ exactly at index words in `[-1023, -1]` (the kernel reads row 0, the reference row `x + 1024`), which
  is why the precondition asks every index word to lie in `[0, 1024)`, the range of the axis it indexes; of that only
  `0 ≤ x` is used (PreDomain.lean): at or above 1024 both programs clamp to row 1023.

  The three frames: the two kernel programs' are the generated frame certificates; the reference has no kernel, and its
  frame is its generated run with the result dropped. The idealization rewrote nothing, so `preserves` is `True`.
-/
import proofs.«415377_j84370337562892_3_alg».proof.Defs
import proofs.«415377_j84370337562892_3_alg».proof.Proof.Gen.Kernel
import proofs.«415377_j84370337562892_3_alg».proof.Proof.Gen.Kernel.Skeleton
import proofs.«415377_j84370337562892_3_alg».proof.Proof.Gen.Kernel.Launch
import proofs.«415377_j84370337562892_3_alg».proof.Proof.Gen.Kernel.Points
import proofs.«415377_j84370337562892_3_alg».proof.Proof.Gen.Kernel.Frame
import proofs.«415377_j84370337562892_3_alg».proof.Proof.Gen.KernelIdeal
import proofs.«415377_j84370337562892_3_alg».proof.Proof.Gen.KernelIdeal.Skeleton
import proofs.«415377_j84370337562892_3_alg».proof.Proof.Gen.KernelIdeal.Launch
import proofs.«415377_j84370337562892_3_alg».proof.Proof.Gen.KernelIdeal.Points
import proofs.«415377_j84370337562892_3_alg».proof.Proof.Gen.KernelIdeal.Frame
import proofs.«415377_j84370337562892_3_alg».proof.Proof.Gen.ReferenceIdeal
import proofs.«415377_j84370337562892_3_alg».proof.Proof.Gen.ReferenceIdeal.Run
import proofs.«415377_j84370337562892_3_alg».proof.Proof.Gen.ReferenceIdeal.Read
import proofs.«415377_j84370337562892_3_alg».proof.Proof.Gen.Pre_finite_inputs
import proofs.«415377_j84370337562892_3_alg».proof.Proof.KernelValue
import proofs.«415377_j84370337562892_3_alg».proof.Proof.RefValue
import proofs.«415377_j84370337562892_3_alg».proof.Proof.PreDomain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `G` of the launched index words and tables: the kernel's for any index words, the reference's
    because under the precondition no index word is negative. -/
theorem algebraic : Cert.algebraic_KernelIdeal_ReferenceIdeal := by
  intro m ρ m' ρ' hpre hagree
  refine ⟨fun c => Cert.Embed.G (Cert.KernelIdeal.Embed.xarr m c) (Cert.KernelIdeal.Embed.warr m c),
    Cert.KernelIdeal.Embed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  exact Cert.ReferenceIdeal.RefValue.result_eq _ _ fun i =>
    (Cert.Pre_finite_inputs.Domain.index_range _ _ (hpre c) i).1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
